-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x600000 : Shape := ⟨2, ![2, 600000]⟩
abbrev S600000 : Shape := ⟨1, ![600000]⟩
abbrev S256x128 : Shape := ⟨2, ![256, 128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S600000 : S_.BroadcastsInDim S600000 (![] : Fin 0 → Fin S600000.rank)
  reducesTo_S600000_S_d0 : S600000.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part1 {F : FTy → Type} [FloatOps F] (main_arg1 : IVec S2x600000 32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_c_8 : IVec S_ 32 := constantI S_ 32 0#32
  let main_v24 : IVec S2x600000 32 := broadcastInDim S2x600000 ![] bcast_S_S2x600000 main_c_8
  let main_v25 : IVec S2x600000 1 := cmpi .sge main_arg1 main_v24
  let main_c_9 : IVec S_ 1 := constantI S_ 1 1#1
  let main_v26 : IVec S_ 1 := (fun x v => Host.reduce IntOp.andi x v reducesTo_S2x600000_S_d0_1 h_S_) main_v25 main_c_9
  let main_v27 : IVec S_ 1 := andi main_v23 main_v26
  main_v27

def fn {F : FTy → Type} [FloatOps F] (main_arg0 : FVec F S100000x256 .f32) (main_arg1 : IVec S2x600000 32) (main_arg2 : FVec F S600000 .f32) (main_arg3 : FVec F S256x128 .f32) (main_arg4 : FVec F S128x128 .f32) (main_arg5 : FVec F S128x128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S100000x256 : Shape := ⟨2, ![100000, 256]⟩
abbrev S2x600000 : Shape := ⟨2, ![2, 600000]⟩
abbrev S600000 : Shape := ⟨1, ![600000]⟩
abbrev S256x128 : Shape := ⟨2, ![256, 128]⟩
abbrev S128x128 : Shape := ⟨2, ![128, 128]⟩
abbrev S100000x128 : Shape := ⟨2, ![100000, 128]⟩
abbrev S4000x256 : Shape := ⟨2, ![4000, 256]⟩
abbrev S4000x128 : Shape := ⟨2, ![4000, 128]⟩
abbrev S1x600000 : Shape := ⟨2, ![1, 600000]⟩
abbrev S600000x1 : Shape := ⟨2, ![600000, 1]⟩
abbrev S600000x128 : Shape := ⟨2, ![600000, 128]⟩
abbrev S600000x256 : Shape := ⟨2, ![600000, 256]⟩
abbrev S_ : Shape := ⟨0, ![]⟩

abbrev nBuf : Space → Nat
  | .hbm => 51
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S2x600000, .i32⟩
  | .hbm, ⟨2, _⟩ => ⟨S600000, .f32⟩
  | .hbm, ⟨3, _⟩ => ⟨S256x128, .f32⟩
  | .hbm, ⟨4, _⟩ => ⟨S128x128, .f32⟩
  | .hbm, ⟨5, _⟩ => ⟨S128x128, .f32⟩
  | .hbm, ⟨6, _⟩ => ⟨S100000x128, .bf16⟩
  | .hbm, ⟨7, _⟩ => ⟨S100000x256, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S600000x1, .i32⟩
  | .hbm, ⟨13, _⟩ => ⟨S600000x128, .bf16⟩
  | .hbm, ⟨14, _⟩ => ⟨S600000x128, .f32⟩
  | .hbm, ⟨15, _⟩ => ⟨S600000x1, .i32⟩
  | .hbm, ⟨16, _⟩ => ⟨S600000x256, .f32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S600000x128, .f32⟩
  | .hbm, ⟨21, _⟩ => ⟨S600000x128, .f32⟩
  | .hbm, ⟨22, _⟩ => ⟨S_, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S600000x128, .f32⟩
  | .hbm, ⟨27, _⟩ => ⟨S600000x128, .f32⟩
  | .hbm, ⟨28, _⟩ => ⟨S600000x128, .f32⟩
  | .hbm, ⟨29, _⟩ => ⟨S600000x1, .f32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .i1⟩
  | .hbm, ⟨39, _⟩ => ⟨S_, .f32⟩
  | .hbm, ⟨40, _⟩ => ⟨S100000x128, .f32⟩
  | .hbm, ⟨41, _⟩ => ⟨S100000x128, .i1⟩
  | .hbm, ⟨42, _⟩ => ⟨S_, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S128x128, .f32⟩
  | .local _ .vmem, ⟨4, _⟩ => ⟨S128x128, .f32⟩
  | .local _ .vmem, ⟨5, _⟩ => ⟨S4000x128, .bf16⟩
  | .local _ .vmem, ⟨6, _⟩ => ⟨S4000x128, .bf16⟩
  | .local _ .vmem, ⟨7, _⟩ => ⟨S4000x256, .f32⟩
  | .local _ .vmem, ⟨8, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call2_cst : Ref sig .tc := ⟨.hbm, 36, rfl⟩
abbrev main_call2_v0 : Ref sig .tc := ⟨.hbm, 37, rfl⟩
abbrev main_call2_v1 : Ref sig .tc := ⟨.hbm, 38, rfl⟩
abbrev main_call2_cst_0 : Ref sig .tc := ⟨.hbm, 39, rfl⟩
abbrev main_call2_v2 : Ref sig .tc := ⟨.hbm, 40, rfl⟩
abbrev main_call2_v3 : Ref sig .tc := ⟨.hbm, 41, rfl⟩
abbrev main_call2_cst_1 : Ref sig .tc := ⟨.hbm, 42, rfl⟩
abbrev main_call2_call0_v0 : Ref sig .tc := ⟨.hbm, 43, rfl⟩
abbrev main_call2_call0_v1 : Ref sig .tc := ⟨.hbm, 44, rfl⟩
abbrev main_call2_v4 : Ref sig .tc := ⟨.hbm, 45, rfl⟩
abbrev main_call2_v5 : Ref sig .tc := ⟨.hbm, 46, rfl⟩
abbrev main_call2_cst_2 : Ref sig .tc := ⟨.hbm, 47, rfl⟩
abbrev main_call2_v6 : Ref sig .tc := ⟨.hbm, 48, rfl⟩
abbrev main_call2_v7 : Ref sig .tc := ⟨.hbm, 49, rfl⟩
abbrev main_v24 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  inb_S4000x256_S4000x128_0_0 : ∀ a, (![0, 0] : Fin 2 → Nat) a + S4000x128.size a ≤ S4000x256.size a
  inb_S4000x256_S4000x128_0_128 : ∀ a, (![0, 128] : Fin 2 → Nat) a + S4000x128.size a ≤ S4000x256.size a
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  slices_S600000x256_S600000x128_0_0 : S600000x256.Slices ![0, 0] S600000x128
  slices_S600000x256_S600000x128_0_128 : S600000x256.Slices ![0, 128] S600000x128
  bcast_S_S600000x128 : S_.BroadcastsInDim S600000x128 (![] : Fin 0 → Fin S600000x128.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  gather_S100000x128_S600000x1_S600000x128_1_0_n_n_0_1_1128_wf : GatherDims.WF S100000x128 S600000x1 S600000x128 [1] [0] [] [0] [] 1 ![1, 128]
  gather_S100000x256_S600000x1_S600000x256_1_0_n_n_0_1_1256_wf : GatherDims.WF S100000x256 S600000x1 S600000x256 [1] [0] [] [0] [] 1 ![1, 256]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S100000x256.size a
  hwx0_5 : ∀ i : grid0.Coords, EltTy.bits .f32 = 32 ∨ (Rect.block (s := S100000x256) S4000x256.size (cc0_transform_5 i) (hinb0_5 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x600000 : Shape := ⟨2, ![2, 600000]⟩
abbrev S600000 : Shape := ⟨1, ![600000]⟩
abbrev S256x128 : Shape := ⟨2, ![256, 128]⟩
abbrev S128x128 : Shape := ⟨2, ![128, 128]⟩
abbrev S100000x128 : Shape := ⟨2, ![100000, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x600000, .i32⟩
  | .hbm, ⟨2, _⟩ => ⟨S600000, .f32⟩
  | .hbm, ⟨3, _⟩ => ⟨S256x128, .f32⟩
  | .hbm, ⟨4, _⟩ => ⟨S128x128, .f32⟩
  | .hbm, ⟨5, _⟩ => ⟨S128x128, .f32⟩
  | .hbm, ⟨6, _⟩ => ⟨S100000x128, .f32⟩
  | .hbm, ⟨7, _⟩ => ⟨S100000x128, .f32⟩
  | .hbm, ⟨8, _⟩ => ⟨S100000x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S600000x128, .f32⟩
  | .hbm, ⟨32, _⟩ => ⟨S600000x128, .f32⟩
  | .hbm, ⟨33, _⟩ => ⟨S600000x128, .f32⟩
  | .hbm, ⟨34, _⟩ => ⟨S_, .f32⟩
  | .hbm, ⟨35, _⟩ => ⟨S600000x128, .f32⟩
  | .hbm, ⟨36, _⟩ => ⟨S600000x128, .f32⟩
  | .hbm, ⟨37, _⟩ => ⟨S_, .f32⟩
  | .hbm, ⟨38, _⟩ => ⟨S600000x128, .f32⟩
  | .hbm, ⟨39, _⟩ => ⟨S600000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S600000x128, .f32⟩
  | .hbm, ⟨50, _⟩ => ⟨S600000x1, .f32⟩
  | .hbm, ⟨51, _⟩ => ⟨S600000x128, .f32⟩
  | .hbm, ⟨52, _⟩ => ⟨S600000x128, .f32⟩
  | .hbm, ⟨53, _⟩ => ⟨S_, .f32⟩
  | .hbm, ⟨54, _⟩ => ⟨S100000x128, .f32⟩
  | .hbm, ⟨55, _⟩ => ⟨S600000x1, .i32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .i1⟩
  | .hbm, ⟨60, _⟩ => ⟨S_, .f32⟩
  | .hbm, ⟨61, _⟩ => ⟨S100000x128, .f32⟩
  | .hbm, ⟨62, _⟩ => ⟨S100000x128, .i1⟩
  | .hbm, ⟨63, _⟩ => ⟨S_, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_call0_cst_1 : Ref sig .tc := ⟨.hbm, 63, rfl⟩
abbrev main_call0_call0_v0 : Ref sig .tc := ⟨.hbm, 64, rfl⟩
abbrev main_call0_call0_v1 : Ref sig .tc := ⟨.hbm, 65, rfl⟩
abbrev main_call0_v4 : Ref sig .tc := ⟨.hbm, 66, rfl⟩
abbrev main_call0_v5 : Ref sig .tc := ⟨.hbm, 67, rfl⟩
abbrev main_call0_cst_2 : Ref sig .tc := ⟨.hbm, 68, rfl⟩
abbrev main_call0_v6 : Ref sig .tc := ⟨.hbm, 69, rfl⟩
abbrev main_call0_v7 : Ref sig .tc := ⟨.hbm, 70, rfl⟩
abbrev main_v42 : Ref sig .tc := ⟨.hbm, 71, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KTail.lean ====
/-
  The host operations after the projection kernel, read back. From the kernel's two output arrays (the source-side gate
  term as an [N × 128] array, and the destination table [gate term | payload] as an [N × 256] array) the host gathers the
  rows the edge list names — the first by source, the second by destination, each through the plain clamping row gather —,
  cuts the gathered table into its two halves, forms the gate, scales the message by the edge weight, adds the messages
  into the rows the source index names, and applies the activation. The result is ONE composed term, `kerOut`.
-/
import proofs.«429056_j90220083020121_3_alg».proof.Proof.Gen.KernelIdeal.Frame
import Idealize.ShloMosaic.Lib.StableHlo.Run

noncomputable section

namespace Cert.KernelIdeal.Tail

open Cert.KernelIdeal Idealize.ShloMosaic Idealize.ShloMosaic.TcCoe Idealize.SL.Sem Idealize.ShloMosaic.StableHlo
open Cert.KernelIdeal.Facts₀

variable {F : FTy → Type} [FloatOps F]

/-- Row 0 of the edge list (the source node of every edge), as a flat vector. -/
def edgeRow0 (ei : IVec S2x600000 32) : IVec S600000 32 :=
  shapeCast S600000 (extractStridedSlice S1x600000 ![0, 0] ei slices_S2x600000_S1x600000_0_0) shapeCasts_S1x600000_S600000

/-- Row 1 of the edge list (the destination node of every edge), as a flat vector. -/
def edgeRow1 (ei : IVec S2x600000 32) : IVec S600000 32 :=
  shapeCast S600000 (extractStridedSlice S1x600000 ![1, 0] ei slices_S2x600000_S1x600000_1_0) shapeCasts_S1x600000_S600000

/-- A vector of node indices as the [E × 1] column of start indices a row gather takes. -/
def idxCol (v : IVec S600000 32) : IVec S600000x1 32 :=
  broadcastInDim S600000x1 ![0] bcast_S600000_S600000x1_0 v

/-- The messages summed per source node: from the three gathered [E × 128] arrays `A` (source-side gate term),
    `B` (destination-side gate term), `C` (the payload), the edge weights and the source indices, the array
    whose row n is the sum over the edges e with source n of  weight e · (1 / (1 + exp (-(A e + B e)))) · C e. -/
def gateSum (A B C : FVec F S600000x128 .f32) (ev : FVec F S600000 .f32) (src : IVec S600000 32) : FVec F S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 src)
    (mulf (broadcastInDim S600000x128 ![0, 1] bcast_S600000x1_S600000x128_0_1 (broadcastInDim S600000x1 ![0] bcast_S600000_S600000x1_0 ev))
      (mulf (Host.divf (broadcastInDim S600000x128 ![] bcast_S_S600000x128 (constant S_ .f32 0x3F800000#32))
              (addf (broadcastInDim S600000x128 ![] bcast_S_S600000x128 (constant S_ .f32 0x3F800000#32)) (Host.exp (Host.negf (addf A B)))))
        C))

/-- The activation, elementwise: x where x > 0, and 1 · (exp(y) − 1) elsewhere, y being x with its positive entries zeroed. -/
def eluOf (X : FVec F S100000x128 .f32) : FVec F S100000x128 .f32 :=
  select (cmpf .ogt X (broadcastInDim S100000x128 ![] bcast_S_S100000x128 (constant S_ .f32 0x00000000#32))) X
    (mulf (broadcastInDim S100000x128 ![] bcast_S_S100000x128 (constant S_ .f32 0x3F800000#32))
      (Host.expm1 (select (cmpf .ogt X (broadcastInDim S100000x128 ![] bcast_S_S100000x128 (constant S_ .f32 0x00000000#32)))
        (broadcastInDim S100000x128 ![] bcast_S_S100000x128 (id (constant S_ .f32 0x00000000#32))) X)))

/-- The three gathered arrays of the kernel's program, from its two output arrays and the edge list. -/
def gatherA (A4 : FVec F S100000x128 .bf16) (ei : IVec S2x600000 32) : FVec F S600000x128 .f32 :=
  extf .f32 (Host.gather gather_S100000x128_S600000x1_S600000x128_1_0_n_n_0_1_1128 A4 (idxCol (edgeRow0 ei))) bitsLt_bf16_f32
def gatherB (A5 : FVec F S100000x256 .f32) (ei : IVec S2x600000 32) : FVec F S600000x128 .f32 :=
  extractStridedSlice S600000x128 ![0, 0] (Host.gather gather_S100000x256_S600000x1_S600000x256_1_0_n_n_0_1_1256 A5 (idxCol (edgeRow1 ei))) slices_S600000x256_S600000x128_0_0
def gatherC (A5 : FVec F S100000x256 .f32) (ei : IVec S2x600000 32) : FVec F S600000x128 .f32 :=
  extractStridedSlice S600000x128 ![0, 128] (Host.gather gather_S100000x256_S600000x1_S600000x256_1_0_n_n_0_1_1256 A5 (idxCol (edgeRow1 ei))) slices_S600000x256_S600000x128_0_128

/-- The program's result as one term of the kernel's two output arrays, the edge list and the edge weights. -/
def kerOut (A4 : FVec F S100000x128 .bf16) (A5 : FVec F S100000x256 .f32) (ei : IVec S2x600000 32) (ev : FVec F S600000 .f32) :
    FVec F S100000x128 .f32 :=
  eluOf (gateSum (gatherA A4 ei) (gatherB A5 ei) (gatherC A5 ei) ev (edgeRow0 ei))

/-- The host operations after the region, in order, as one list. -/
abbrev tailOps : List (HloOp τ sig (Elt F)) :=
  List.flatten [Gen.hostOps1, Gen.hostOps1_1, Gen.hostOps1_2, Gen.hostOps1_3, Gen.hostOps1_4, Gen.hostOps1_5]

attribute [local irreducible] Host.gather Host.scatterAdd Host.exp Host.expm1 in
set_option maxRecDepth 8192 in
set_option maxHeartbeats 1000000 in
/-- Their fold at the result buffer, from any contents `Wv`: `kerOut` of `Wv` at the two output arrays, the edge list and the weights. -/
theorem fold_v24 (Wv : Valuation τ sig (Elt F)) :
    StableHlo.after (tailOps (F := F)) Wv (Proc.devRef .tc main_v24)
      = kerOut (Wv (Proc.devRef .tc main_v0_0)) (Wv (Proc.devRef .tc main_v0_1)) (Wv (Proc.devRef .tc main_arg1)) (Wv (Proc.devRef .tc main_arg2)) := by
  simp only [tailOps, Gen.hostOps1, Gen.hostOps1_1, Gen.hostOps1_2, Gen.hostOps1_3, Gen.hostOps1_4, Gen.hostOps1_5, List.flatten_cons,
    List.flatten_nil, List.append_nil, List.cons_append, List.nil_append]
  after_results_simp
  rfl

variable (m : (ℓ : Loc nD τ sig) → Buf (Elt F) ℓ) (ρ : Dev nD → PrngReg)

/-- What the result buffer holds once the operations after the region have run from the region's exit contents:
    `kerOut` of the two output arrays as the region leaves them and of the edge list and weights as launched. -/
theorem tail_v24 (c : Dev nD) :
    Pipeline.afterTail₀ cfgs (Gen.dats m) 0 (Gen.V0 m) [Gen.hostOps1, Gen.hostOps1_1, Gen.hostOps1_2, Gen.hostOps1_3, Gen.hostOps1_4, Gen.hostOps1_5] c main_v24
      = kerOut ((Gen.dats m 0 c).arrAt 4 cfg0.N) ((Gen.dats m 0 c).arrAt 5 cfg0.N)
          (m ((c : Thread nD τ).loc main_arg1)) (m ((c : Thread nD τ).loc main_arg2)) := by
  unfold Pipeline.afterTail₀
  refine (fold_v24 _).trans ?_
  have h4 := Pipeline.withArrays_arr spec0 Gen.launch0.win.arr_inj c (Gen.V0 m c) (fun w => (Gen.dats m 0 c).arrAt w cfg0.N) 4
  have h5 := Pipeline.withArrays_arr spec0 Gen.launch0.win.arr_inj c (Gen.V0 m c) (fun w => (Gen.dats m 0 c).arrAt w cfg0.N) 5
  have h1 := Pipeline.withArrays_of_ne spec0 c (Gen.V0 m c) (fun w => (Gen.dats m 0 c).arrAt w cfg0.N) main_arg1
    (by exact (by decide : ∀ w, Pipeline.arrRef spec0 w ≠ main_arg1))
  have h2 := Pipeline.withArrays_of_ne spec0 c (Gen.V0 m c) (fun w => (Gen.dats m 0 c).arrAt w cfg0.N) main_arg2
    (by exact (by decide : ∀ w, Pipeline.arrRef spec0 w ≠ main_arg2))
  exact congr (congr (congr (congrArg kerOut h4) h5) (h1.trans (Gen.V_main_arg1 m c))) (h2.trans (Gen.V_main_arg2 m c))

/-- The kernel's program run: every weakly fair execution terminates with the result at `kerOut` of the region's two
    output arrays, and the arguments unchanged. -/
theorem run : θ_run defs (onTc (τ := τ) (main (F := F))) ⟨m, fun _ => 0, ρ⟩ fun r => ∀ c : Dev nD,
      r.2.mem ((c.tc : Thread nD τ).loc main_v24)
          = kerOut ((Gen.dats m 0 c).arrAt 4 cfg0.N) ((Gen.dats m 0 c).arrAt 5 cfg0.N)
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v24 (Pipeline.mem_restRefs_of main_v24 (by decide) (by decide))).trans (tail_v24 m c),
      ((h c).1 0).trans (((Gen.dats m 0 c).arrAt_in 0 rfl _).trans ((Gen.A_eq m c 0).trans (Gen.V_main_arg0 m c))),
      (((h c).2 main_arg1 (Pipeline.mem_restRefs_of main_arg1 (by decide) (by decide))).trans (Gen.W_main_arg1 m (Gen.dats m) c)),
      (((h c).2 main_arg2 (Pipeline.mem_restRefs_of main_arg2 (by decide) (by decide))).trans (Gen.W_main_arg2 m (Gen.dats m) c)),
      ((h c).1 1).trans (((Gen.dats m 0 c).arrAt_in 1 rfl _).trans ((Gen.A_eq m c 1).trans (Gen.V_main_arg3 m c))),
      ((h c).1 2).trans (((Gen.dats m 0 c).arrAt_in 2 rfl _).trans ((Gen.A_eq m c 2).trans (Gen.V_main_arg4 m c))),
      ((h c).1 3).trans (((Gen.dats m 0 c).arrAt_in 3 rfl _).trans ((Gen.A_eq m c 3).trans (Gen.V_main_arg5 m c)))⟩)
    (Gen.run_main m ρ)

end Cert.KernelIdeal.Tail

end
-- ==== Proof.LibMatProd.lean ====
import Idealize.ShloMosaic.PureOps.Ideal
import Idealize.ShloMosaic.Lib.ValueIdx
import Mathlib.Data.EReal.Basic
import Mathlib.Algebra.BigOperators.Group.Finset.Basic

/-!
# A matrix product on extended reals, index by index

`mmP A B` is the product of an `M × K` and a `K × N` array of extended reals: entry `(r, s)` is the sum over the
contracted axis of `A (r, j) * B (j, s)`. Every tiled matrix product of the program is this function of its two operand
arrays, whatever the tiling.
-/

open Idealize.ShloMosaic Idealize.ShloMosaic.ValueIdx

namespace MatProd

/-- The `M × K` by `K × N` product on extended reals, as a function of the result's index. -/
noncomputable def mmP {M K N : ℕ} (A : (⟨2, ![M, K]⟩ : Shape).Idx → EReal) (B : (⟨2, ![K, N]⟩ : Shape).Idx → EReal) :
    (⟨2, ![M, N]⟩ : Shape).Idx → EReal :=
  fun idx => ∑ j : Fin K, A (ix2 (idx 0) j) * B (ix2 j (idx 1))

/-- Entry `(r, s)` of the product is the sum of the products along the contracted axis. -/
theorem mmP_apply {M K N : ℕ} (A : (⟨2, ![M, K]⟩ : Shape).Idx → EReal) (B : (⟨2, ![K, N]⟩ : Shape).Idx → EReal)
    (r : Fin M) (s : Fin N) : mmP A B (ix2 r s) = ∑ j : Fin K, A (ix2 r j) * B (ix2 j s) := rfl

end MatProd
-- ==== Proof.Spec.lean ====
/-
  The one array shape the kernel builds that the reference never does: the destination table, an
  [N × 256] array holding one [N × 128] array in its columns 0…127 and another in its columns 128…255.
-/
import Idealize.ShloMosaic.PureOps.Ideal
import Idealize.ShloMosaic.Lib.ValueIdx

noncomputable section

namespace Cert.Spec

open Idealize.ShloMosaic Idealize.ShloMosaic.ValueIdx

/-- Two [N × 128] arrays side by side: entry (i, j) is `P (i, j)` for j < 128 and `Q (i, j - 128)` from there on. -/
def sideBySide {N : Nat} (P Q : (⟨2, ![N, 128]⟩ : Shape).Idx → EReal) : (⟨2, ![N, 256]⟩ : Shape).Idx → EReal :=
  fun i => if h : (i 1).val < 128 then P (ix2 (i 0) ⟨(i 1).val, h⟩)
    else Q (ix2 (i 0) ⟨(i 1).val - 128, by have := idx2_lt1 i; omega⟩)

/-- Its left half. -/
theorem sideBySide_left {N : Nat} (P Q : (⟨2, ![N, 128]⟩ : Shape).Idx → EReal) (r : Fin N) (k : Fin 128) :
    sideBySide P Q (ix2 r (⟨k.val, by omega⟩ : Fin 256)) = P (ix2 r k) := by
  unfold sideBySide
  rw [dif_pos (show ((ix2 r (⟨k.val, by omega⟩ : Fin 256)) 1).val < 128 from k.isLt)]
  rfl

/-- Its right half. -/
theorem sideBySide_right {N : Nat} (P Q : (⟨2, ![N, 128]⟩ : Shape).Idx → EReal) (r : Fin N) (k : Fin 128) :
    sideBySide P Q (ix2 r (⟨128 + k.val, by omega⟩ : Fin 256)) = Q (ix2 r k) := by
  unfold sideBySide
  rw [dif_neg (show ¬ ((ix2 r (⟨128 + k.val, by omega⟩ : Fin 256)) 1).val < 128 from by show ¬ (128 + k.val < 128); omega)]
  congr 2
  apply Fin.ext
  show 128 + k.val - 128 = k.val
  omega

end Cert.Spec

end
-- ==== Proof.KRegion.lean ====
/-
  What the projection kernel leaves in its two output arrays. Grid point t stages rows 4000·t … 4000·t + 3999 of x and
  the three weight matrices whole; its body forms h = x·W on the block, then h·a1 and h·a2, stores h·a1 as the first
  output's block and [h·a2 | h] side by side as the second's. The 25 blocks tile the 100000 rows, so after the run the
  first output array is (x·W)·a1 and the second is [(x·W)·a2 | x·W], as functions of the whole argument arrays.
-/
import proofs.«429056_j90220083020121_3_alg».proof.Proof.Gen.KernelIdeal.Frame
import proofs.«429056_j90220083020121_3_alg».proof.Proof.LibMatProd
import proofs.«429056_j90220083020121_3_alg».proof.Proof.Spec
import Idealize.ShloMosaic.Lib.ValueIdx
import Idealize.ShloMosaic.Lib.Pipeline.Value
import Idealize.ShloMosaic.PureOps.Ideal.Laws

noncomputable section

namespace Cert.KernelIdeal.Region

open Idealize.ShloMosaic Idealize.ShloMosaic.TcCoe Idealize.SL.Sem Idealize.ShloMosaic.ValueIdx
open Cert.KernelIdeal Cert.KernelIdeal.Gen MatProd Cert.Spec
open scoped BigOperators

/-! The operand indices of the two products, axis by axis. -/

theorem lhsXW_0 (j : S4000x128.Idx) (k : dot_S4000x256_S256x128_S4000x128_1_0_0_1_n_n.contr.Idx) :
    (dot_S4000x256_S256x128_S4000x128_1_0_0_1_n_n.lhsIdx j k 0 : ℕ) = j 0 := by
  simp [DotDims.lhsIdx, dot_S4000x256_S256x128_S4000x128_1_0_0_1_n_n]; rfl
theorem lhsXW_1 (j : S4000x128.Idx) (k : dot_S4000x256_S256x128_S4000x128_1_0_0_1_n_n.contr.Idx) :
    (dot_S4000x256_S256x128_S4000x128_1_0_0_1_n_n.lhsIdx j k 1 : ℕ) = k ⟨0, by decide⟩ := by
  simp [DotDims.lhsIdx, dot_S4000x256_S256x128_S4000x128_1_0_0_1_n_n]; rfl
theorem rhsXW_0 (j : S4000x128.Idx) (k : dot_S4000x256_S256x128_S4000x128_1_0_0_1_n_n.contr.Idx) :
    (dot_S4000x256_S256x128_S4000x128_1_0_0_1_n_n.rhsIdx j k 0 : ℕ) = k ⟨0, by decide⟩ := by
  simp [DotDims.rhsIdx, dot_S4000x256_S256x128_S4000x128_1_0_0_1_n_n]; rfl
theorem rhsXW_1 (j : S4000x128.Idx) (k : dot_S4000x256_S256x128_S4000x128_1_0_0_1_n_n.contr.Idx) :
    (dot_S4000x256_S256x128_S4000x128_1_0_0_1_n_n.rhsIdx j k 1 : ℕ) = j 1 := by
  simp [DotDims.rhsIdx, dot_S4000x256_S256x128_S4000x128_1_0_0_1_n_n]; rfl

theorem lhsHA_0 (j : S4000x128.Idx) (k : dot_S4000x128_S128x128_S4000x128_1_0_0_1_n_n.contr.Idx) :
    (dot_S4000x128_S128x128_S4000x128_1_0_0_1_n_n.lhsIdx j k 0 : ℕ) = j 0 := by
  simp [DotDims.lhsIdx, dot_S4000x128_S128x128_S4000x128_1_0_0_1_n_n]; rfl
theorem lhsHA_1 (j : S4000x128.Idx) (k : dot_S4000x128_S128x128_S4000x128_1_0_0_1_n_n.contr.Idx) :
    (dot_S4000x128_S128x128_S4000x128_1_0_0_1_n_n.lhsIdx j k 1 : ℕ) = k ⟨0, by decide⟩ := by
  simp [DotDims.lhsIdx, dot_S4000x128_S128x128_S4000x128_1_0_0_1_n_n]; rfl
theorem rhsHA_0 (j : S4000x128.Idx) (k : dot_S4000x128_S128x128_S4000x128_1_0_0_1_n_n.contr.Idx) :
    (dot_S4000x128_S128x128_S4000x128_1_0_0_1_n_n.rhsIdx j k 0 : ℕ) = k ⟨0, by decide⟩ := by
  simp [DotDims.rhsIdx, dot_S4000x128_S128x128_S4000x128_1_0_0_1_n_n]; rfl
theorem rhsHA_1 (j : S4000x128.Idx) (k : dot_S4000x128_S128x128_S4000x128_1_0_0_1_n_n.contr.Idx) :
    (dot_S4000x128_S128x128_S4000x128_1_0_0_1_n_n.rhsIdx j k 1 : ℕ) = j 1 := by
  simp [DotDims.rhsIdx, dot_S4000x128_S128x128_S4000x128_1_0_0_1_n_n]; rfl

/-- Where the first product reads its left operand: row r, contracted position k. -/
theorem lhsXW_at (r : Fin 4000) (q : Fin 128) (k : Fin 256) :
    dot_S4000x256_S256x128_S4000x128_1_0_0_1_n_n.lhsIdx (ix2 r q)
      ((contrEquiv1 dot_S4000x256_S256x128_S4000x128_1_0_0_1_n_n 256 rfl rfl).symm k) = ix2 r k := by
  funext a; apply Fin.ext
  match a with
  | ⟨0, _⟩ => exact lhsXW_0 _ _
  | ⟨1, _⟩ => exact (lhsXW_1 _ _).trans (contrEquiv1_symm_val _ 256 rfl rfl k)
/-- Where it reads its right operand: contracted position k, column q. -/
theorem rhsXW_at (r : Fin 4000) (q : Fin 128) (k : Fin 256) :
    dot_S4000x256_S256x128_S4000x128_1_0_0_1_n_n.rhsIdx (ix2 r q)
      ((contrEquiv1 dot_S4000x256_S256x128_S4000x128_1_0_0_1_n_n 256 rfl rfl).symm k) = ix2 k q := by
  funext a; apply Fin.ext
  match a with
  | ⟨0, _⟩ => exact (rhsXW_0 _ _).trans (contrEquiv1_symm_val _ 256 rfl rfl k)
  | ⟨1, _⟩ => exact rhsXW_1 _ _
/-- The second product's left operand: row r, contracted position k. -/
theorem lhsHA_at (r : Fin 4000) (q : Fin 128) (k : Fin 128) :
    dot_S4000x128_S128x128_S4000x128_1_0_0_1_n_n.lhsIdx (ix2 r q)
      ((contrEquiv1 dot_S4000x128_S128x128_S4000x128_1_0_0_1_n_n 128 rfl rfl).symm k) = ix2 r k := by
  funext a; apply Fin.ext
  match a with
  | ⟨0, _⟩ => exact lhsHA_0 _ _
  | ⟨1, _⟩ => exact (lhsHA_1 _ _).trans (contrEquiv1_symm_val _ 128 rfl rfl k)
/-- The second product's right operand: contracted position k, column q. -/
theorem rhsHA_at (r : Fin 4000) (q : Fin 128) (k : Fin 128) :
    dot_S4000x128_S128x128_S4000x128_1_0_0_1_n_n.rhsIdx (ix2 r q)
      ((contrEquiv1 dot_S4000x128_S128x128_S4000x128_1_0_0_1_n_n 128 rfl rfl).symm k) = ix2 k q := by
  funext a; apply Fin.ext
  match a with
  | ⟨0, _⟩ => exact (rhsHA_0 _ _).trans (contrEquiv1_symm_val _ 128 rfl rfl k)
  | ⟨1, _⟩ => exact rhsHA_1 _ _

/-! The body's three stored values at an entry, as sums. -/

/-- The block's first product x·W at entry (r, q). -/
theorem pay1_apply (x0 : Vec Ideal S4000x256 .f32) (W : Vec Ideal S256x128 .f32) (r : Fin 4000) (q : Fin 128) :
    k0_pay1 (F := Ideal) x0 W (ix2 r q) = ∑ k : Fin 256, x0 (ix2 r k) * W (ix2 k q) := by
  unfold k0_pay1
  refine (Ideal.matmul_constant_zero_apply _ none _ _ (ix2 r q)).trans ?_
  rw [← Equiv.sum_comp (contrEquiv1 dot_S4000x256_S256x128_S4000x128_1_0_0_1_n_n 256 rfl rfl).symm]
  refine Finset.sum_congr rfl fun k _ => ?_
  exact congrArg₂ (· * ·) (congrArg x0 (lhsXW_at r q k)) (congrArg W (rhsXW_at r q k))

/-- (x·W)·a at entry (r, q), for the weight block a the second output reads. -/
theorem pay3_apply (x0 : Vec Ideal S4000x256 .f32) (W : Vec Ideal S256x128 .f32) (a : Vec Ideal S128x128 .f32)
    (r : Fin 4000) (q : Fin 128) :
    k0_pay3 (F := Ideal) x0 W a (ix2 r q)
      = ∑ k : Fin 128, (∑ l : Fin 256, x0 (ix2 r l) * W (ix2 l k)) * a (ix2 k q) := by
  unfold k0_pay3 k0_pay2
  refine (Ideal.matmul_constant_zero_apply _ none _ _ (ix2 r q)).trans ?_
  rw [← Equiv.sum_comp (contrEquiv1 dot_S4000x128_S128x128_S4000x128_1_0_0_1_n_n 128 rfl rfl).symm]
  refine Finset.sum_congr rfl fun k _ => ?_
  refine congrArg₂ (· * ·) ?_ (congrArg a (rhsHA_at r q k))
  exact (congrArg (k0_pay1 (F := Ideal) x0 W) (lhsHA_at r q k)).trans (pay1_apply x0 W r k)

/-- (x·W)·a at entry (r, q), for the weight block a the first output reads. -/
theorem pay4_apply (x0 : Vec Ideal S4000x256 .f32) (W : Vec Ideal S256x128 .f32) (a : Vec Ideal S128x128 .f32)
    (r : Fin 4000) (q : Fin 128) :
    k0_pay4 (F := Ideal) x0 W a (ix2 r q)
      = ∑ k : Fin 128, (∑ l : Fin 256, x0 (ix2 r l) * W (ix2 l k)) * a (ix2 k q) := by
  unfold k0_pay4 k0_pay2
  refine (Ideal.matmul_constant_zero_apply _ none _ _ (ix2 r q)).trans ?_
  rw [← Equiv.sum_comp (contrEquiv1 dot_S4000x128_S128x128_S4000x128_1_0_0_1_n_n 128 rfl rfl).symm]
  refine Finset.sum_congr rfl fun k _ => ?_
  refine congrArg₂ (· * ·) ?_ (congrArg a (rhsHA_at r q k))
  exact (congrArg (k0_pay1 (F := Ideal) x0 W) (lhsHA_at r q k)).trans (pay1_apply x0 W r k)

/-! The two output arrays as functions of the whole argument arrays, and the body's values as their blocks. -/

variable (m : (ℓ : Loc nD τ sig) → Buf (Elt Ideal) ℓ)

theorem hz : (![0, 0] : Fin 2 → Nat) = fun _ => 0 := funext fun a => by fin_cases a <;> rfl

/-- (X·W)·A on the whole arrays. -/
abbrev proj (X : S100000x256.Idx → EReal) (W : S256x128.Idx → EReal) (A : S128x128.Idx → EReal) : S100000x128.Idx → EReal :=
  mmP (M := 100000) (K := 128) (N := 128) (mmP (M := 100000) (K := 256) (N := 128) X W) A

/-- X·W on the whole arrays. -/
abbrev hid (X : S100000x256.Idx → EReal) (W : S256x128.Idx → EReal) : S100000x128.Idx → EReal :=
  mmP (M := 100000) (K := 256) (N := 128) X W

/-- A block entry of x·W is the array entry of X·W in the row the block's row comes from. -/
theorem pay1_eq_hid (x0 : Vec Ideal S4000x256 .f32) (W : Vec Ideal S256x128 .f32) (X : S100000x256.Idx → EReal)
    (r : Fin 4000) (q : Fin 128) (R : Fin 100000) (hx : ∀ l : Fin 256, x0 (ix2 r l) = X (ix2 R l)) :
    k0_pay1 (F := Ideal) x0 W (ix2 r q) = hid X W (ix2 R q) := by
  rw [pay1_apply]
  show _ = ∑ l : Fin 256, X (ix2 R l) * W (ix2 l q)
  exact Finset.sum_congr rfl fun l _ => by rw [hx l]

/-- A block entry of (x·W)·a is the array entry of (X·W)·a in the row the block's row comes from. -/
theorem sum_eq_proj (x0 : Vec Ideal S4000x256 .f32) (W : Vec Ideal S256x128 .f32) (A : Vec Ideal S128x128 .f32)
    (X : S100000x256.Idx → EReal) (r : Fin 4000) (q : Fin 128) (R : Fin 100000)
    (hx : ∀ l : Fin 256, x0 (ix2 r l) = X (ix2 R l)) :
    (∑ k : Fin 128, (∑ l : Fin 256, x0 (ix2 r l) * W (ix2 l k)) * A (ix2 k q)) = proj X W A (ix2 R q) := by
  show _ = ∑ k : Fin 128, (∑ l : Fin 256, X (ix2 R l) * W (ix2 l k)) * A (ix2 k q)
  refine Finset.sum_congr rfl fun k _ => ?_
  refine congrArg (· * A (ix2 k q)) (Finset.sum_congr rfl fun l _ => ?_)
  rw [hx l]

theorem pay4_eq_proj (x0 : Vec Ideal S4000x256 .f32) (W : Vec Ideal S256x128 .f32) (A : Vec Ideal S128x128 .f32)
    (X : S100000x256.Idx → EReal) (r : Fin 4000) (q : Fin 128) (R : Fin 100000)
    (hx : ∀ l : Fin 256, x0 (ix2 r l) = X (ix2 R l)) :
    k0_pay4 (F := Ideal) x0 W A (ix2 r q) = proj X W A (ix2 R q) :=
  (pay4_apply x0 W A r q).trans (sum_eq_proj x0 W A X r q R hx)

theorem pay3_eq_proj (x0 : Vec Ideal S4000x256 .f32) (W : Vec Ideal S256x128 .f32) (A : Vec Ideal S128x128 .f32)
    (X : S100000x256.Idx → EReal) (r : Fin 4000) (q : Fin 128) (R : Fin 100000)
    (hx : ∀ l : Fin 256, x0 (ix2 r l) = X (ix2 R l)) :
    k0_pay3 (F := Ideal) x0 W A (ix2 r q) = proj X W A (ix2 R q) :=
  (pay3_apply x0 W A r q).trans (sum_eq_proj x0 W A X r q R hx)

/-- The windows' index maps over the grid: the three row-blocked windows sit at block row t, the weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row r of x's block at point t is row 4000·t + r of x. -/
theorem xblk_apply (c : Dev nD) (t : Fin cfg0.N) (r : Fin 4000) (l : Fin 256) (R : Fin 100000)
    (hR : R.val = t.val * 4000 + r.val) :
    (iblk (F := Ideal) m c 0 t : S4000x256.Idx → EReal) (ix2 r l) = (V m c main_arg0 : S100000x256.Idx → EReal) (ix2 R l) := by
  obtain ⟨e0, e1, -⟩ := idx_facts t
  show V m c main_arg0 (((cfg0.win 0).blk t).view.emb (ix2 r l)) = V m c main_arg0 (ix2 R l)
  refine congrArg (V m c main_arg0) ?_
  funext a; apply Fin.ext
  match a with
  | ⟨0, _⟩ => show win0_0.index t (0 : Fin 2) * 4000 + 1 * r.val = R.val; omega
  | ⟨1, _⟩ => show win0_0.index t (1 : Fin 2) * 256 + 1 * l.val = l.val; omega

/-- The three weight windows stage their arrays whole. -/
theorem wblk_eq (c : Dev nD) (t : Fin cfg0.N) :
    (iblk (F := Ideal) m c 1 t : S256x128.Idx → EReal) = V m c main_arg3 := by
  obtain ⟨-, -, e0, e1, -⟩ := idx_facts t
  funext y
  show V m c main_arg3 (((cfg0.win 1).blk t).view.emb y) = V m c main_arg3 y
  refine congrArg (V m c main_arg3) ?_
  funext a; apply Fin.ext
  match a with
  | ⟨0, _⟩ => show win0_1.index t (0 : Fin 2) * 256 + 1 * (y 0).val = (y 0).val; omega
  | ⟨1, _⟩ => show win0_1.index t (1 : Fin 2) * 128 + 1 * (y 1).val = (y 1).val; omega
theorem a1blk_eq (c : Dev nD) (t : Fin cfg0.N) :
    (iblk (F := Ideal) m c 2 t : S128x128.Idx → EReal) = V m c main_arg4 := by
  obtain ⟨-, -, -, -, e0, e1, -⟩ := idx_facts t
  funext y
  show V m c main_arg4 (((cfg0.win 2).blk t).view.emb y) = V m c main_arg4 y
  refine congrArg (V m c main_arg4) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem a2blk_eq (c : Dev nD) (t : Fin cfg0.N) :
    (iblk (F := Ideal) m c 3 t : S128x128.Idx → EReal) = V m c main_arg5 := by
  obtain ⟨-, -, -, -, -, -, e0, e1, -⟩ := idx_facts t
  funext y
  show V m c main_arg5 (((cfg0.win 3).blk t).view.emb y) = V m c main_arg5 y
  refine congrArg (V m c main_arg5) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The first output's value at a block index against the array function at the index the block puts it. -/
theorem pay4_blk (x0 : Vec Ideal S4000x256 .f32) (W : Vec Ideal S256x128 .f32) (A : Vec Ideal S128x128 .f32)
    (X : S100000x256.Idx → EReal) (j : S4000x128.Idx) (i : S100000x128.Idx) (T : ℕ)
    (h0 : (i 0).val = T * 4000 + (j 0).val) (h1 : (i 1).val = (j 1).val)
    (hx : ∀ (r : Fin 4000) (l : Fin 256) (R : Fin 100000), R.val = T * 4000 + r.val → x0 (ix2 r l) = X (ix2 R l)) :
    k0_pay4 (F := Ideal) x0 W A j = proj X W A i := by
  obtain ⟨r, q, rfl⟩ : ∃ (r : Fin 4000) (q : Fin 128), j = ix2 r q := ⟨j 0, j 1, eq_ix2 j⟩
  obtain ⟨R, Q, rfl⟩ : ∃ (R : Fin 100000) (Q : Fin 128), i = ix2 R Q := ⟨i 0, i 1, eq_ix2 i⟩
  obtain rfl : Q = q := Fin.ext h1
  exact pay4_eq_proj x0 W A X r Q R (fun l => hx r l R h0)

/-- What point t writes back to the first output is block t of (x·W)·a1 on the whole arrays. -/
theorem flushed4_eq (c : Dev nD) (t : Fin cfg0.N) :
    (dats (F := Ideal) m 0 c).flushed 4 t
      = ((cfg0.win 4).blk t).view.read (Elt Ideal) (proj (V m c main_arg0) (V m c main_arg3) (V m c main_arg4)) := by
  show (cfg0.win 4).cut (grid0.coords t) ((dats m 0 c).after 4 t) = _
  rw [after0_4]
  unfold out0_4
  rw [View.canon_unit_zero hz]
  simp only [View.ld_unit_zero (S := S4000x256) hz, View.ld_unit_zero (S := S256x128) hz, View.ld_unit_zero (S := S128x128) hz]
  funext j
  show k0_pay4 (F := Ideal) (iblk m c 0 t) (iblk m c 1 t) (iblk m c 2 t) j
      = proj (V m c main_arg0) (V m c main_arg3) (V m c main_arg4) (((cfg0.win 4).blk t).view.emb j)
  have key : k0_pay4 (F := Ideal) (iblk m c 0 t) (iblk m c 1 t) (iblk m c 2 t) j
      = k0_pay4 (F := Ideal) (iblk m c 0 t) (V m c main_arg3) (V m c main_arg4) j :=
    congrArg₂ (fun (w : Vec Ideal S256x128 .f32) (a : Vec Ideal S128x128 .f32) => k0_pay4 (F := Ideal) (iblk m c 0 t) w a j)
      (wblk_eq m c t) (a1blk_eq m c t)
  refine key.trans ?_
  obtain ⟨-, -, -, -, -, -, -, -, e0, e1, -⟩ := idx_facts t
  refine pay4_blk (iblk m c 0 t) (V m c main_arg3) (V m c main_arg4) (V m c main_arg0) j
    (((cfg0.win 4).blk t).view.emb j) t.val ?_ ?_ (fun r l R hR => xblk_apply m c t r l R hR)
  · show win0_4.index t (0 : Fin 2) * 4000 + 1 * (j 0).val = t.val * 4000 + (j 0).val; omega
  · show win0_4.index t (1 : Fin 2) * 128 + 1 * (j 1).val = (j 1).val; omega

/-- An index of the first output is in point t's block iff each coordinate is in the block's range on its axis. -/
theorem mem_blk4 (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v0_0).slice (win0_4.rect t)).set ↔ _
  rw [View.set_slice_whole, Rect.mem_set_unit]
  exact Iff.rfl

/-- Row i of the 100000 lies in the block of point i / 4000. -/
theorem cover4 (i : S100000x128.Idx) :
    ∃ t : Fin cfg0.N, (cfg0.win 4).flush t = true ∧ i ∈ ((cfg0.win 4).blk t).view.set := by
  have hN : cfg0.N = 25 := N_0
  have hi0 : (i 0).val < 100000 := (i 0).isLt
  have hi1 : (i 1).val < 128 := (i 1).isLt
  refine ⟨⟨(i 0).val / 4000, by omega⟩, flush0_4 _, ?_⟩
  rw [mem_blk4]
  obtain ⟨-, -, -, -, -, -, -, -, e0, e1, -⟩ := idx_facts ⟨(i 0).val / 4000, by omega⟩
  intro a
  match a with
  | ⟨0, _⟩ =>
    show win0_4.index _ (0 : Fin 2) * 4000 ≤ (i 0).val ∧ (i 0).val < win0_4.index _ (0 : Fin 2) * 4000 + 4000
    rw [e0]; show (i 0).val / 4000 * 4000 ≤ (i 0).val ∧ (i 0).val < (i 0).val / 4000 * 4000 + 4000; omega
  | ⟨1, _⟩ =>
    show win0_4.index _ (1 : Fin 2) * 128 ≤ (i 1).val ∧ (i 1).val < win0_4.index _ (1 : Fin 2) * 128 + 128
    rw [e1]; omega

/-- The first output array after the run: (x·W)·a1. -/
theorem arr4 (c : Dev nD) :
    (dats (F := Ideal) m 0 c).arrAt 4 cfg0.N
      = mmP (M := 100000) (K := 128) (N := 128)
          (mmP (M := 100000) (K := 256) (N := 128) (m ((c : Thread nD τ).loc main_arg0)) (m ((c : Thread nD τ).loc main_arg3)))
          (m ((c : Thread nD τ).loc main_arg4)) :=
  (dats (F := Ideal) m 0 c).arrAt_eq_of_cover 4
    (proj (m ((c : Thread nD τ).loc main_arg0)) (m ((c : Thread nD τ).loc main_arg3)) (m ((c : Thread nD τ).loc main_arg4)))
    (fun t _ => flushed4_eq m c t) cover4

/-! The second output: its block is the two stored values side by side, and so is the array. -/

/-- Columns 0…127 of two arrays side by side read the left one. -/
theorem side_lo {N : ℕ} (P Q : (⟨2, ![N, 128]⟩ : Shape).Idx → EReal) (r : Fin N) (q : Fin 256) (h : q.val < 128) :
    sideBySide P Q (ix2 r q) = P (ix2 r ⟨q.val, h⟩) := by
  unfold sideBySide
  exact dif_pos (show ((ix2 r q) 1).val < 128 from h)
/-- Columns 128…255 read the right one, 128 columns back. -/
theorem side_hi {N : ℕ} (P Q : (⟨2, ![N, 128]⟩ : Shape).Idx → EReal) (r : Fin N) (q : Fin 256) (h : ¬ q.val < 128) :
    sideBySide P Q (ix2 r q) = Q (ix2 r ⟨q.val - 128, by have := q.isLt; omega⟩) := by
  unfold sideBySide
  exact dif_neg (show ¬ ((ix2 r q) 1).val < 128 from h)

/-- The store into columns 128…255 is the right half of the side-by-side block. -/
theorem piece_hi (P Q : S4000x128.Idx → EReal) (x : S4000x128.Idx) :
    Q x = sideBySide (N := 4000) P Q (r0_5.emb x) := by
  obtain ⟨r, q, rfl⟩ : ∃ (r : Fin 4000) (q : Fin 128), x = ix2 r q := ⟨x 0, x 1, eq_ix2 x⟩
  have he : r0_5.emb (ix2 r q) = ix2 r (⟨128 + q.val, by omega⟩ : Fin 256) := by
    funext a; apply Fin.ext
    match a with
    | ⟨0, _⟩ => show 0 + 1 * r.val = r.val; omega
    | ⟨1, _⟩ => show 128 + 1 * q.val = 128 + q.val; omega
  rw [he]
  exact (sideBySide_right P Q r q).symm
/-- The store into columns 0…127 is its left half. -/
theorem piece_lo (P Q : S4000x128.Idx → EReal) (x : S4000x128.Idx) :
    P x = sideBySide (N := 4000) P Q (r0_4.emb x) := by
  obtain ⟨r, q, rfl⟩ : ∃ (r : Fin 4000) (q : Fin 128), x = ix2 r q := ⟨x 0, x 1, eq_ix2 x⟩
  have he : r0_4.emb (ix2 r q) = ix2 r (⟨q.val, by omega⟩ : Fin 256) := by
    funext a; apply Fin.ext
    match a with
    | ⟨0, _⟩ => show 0 + 1 * r.val = r.val; omega
    | ⟨1, _⟩ => show 0 + 1 * q.val = q.val; omega
  rw [he]
  exact (sideBySide_left P Q r q).symm

/-- What the body leaves in the second output's buffer: [(x·W)·a2 | x·W] on the block. -/
theorem out5_eq (x0 : Vec Ideal S4000x256 .f32) (W : Vec Ideal S256x128 .f32) (A1 A2 : Vec Ideal S128x128 .f32) :
    out0_5 (F := Ideal) x0 W A1 A2
      = sideBySide (N := 4000) (k0_pay3 (F := Ideal) x0 W A2) (k0_pay1 (F := Ideal) x0 W) := by
  unfold out0_5
  simp only [View.ld_unit_zero (S := S4000x256) hz, View.ld_unit_zero (S := S256x128) hz, View.ld_unit_zero (S := S128x128) hz]
  funext y
  refine View.canon_apply_of_pieces (Val := Elt Ideal) (S := S4000x256) (e := .f32)
    (sideBySide (N := 4000) (k0_pay3 (F := Ideal) x0 W A2) (k0_pay1 (F := Ideal) x0 W)) _ ?_ y (cover0_5 _ _ y)
  intro p hp
  rcases List.mem_cons.mp hp with rfl | hp
  · exact fun x => piece_hi _ _ x
  · rcases List.mem_cons.mp hp with rfl | hp
    · exact fun x => piece_lo _ _ x
    · exact absurd hp List.not_mem_nil

/-- [(X·W)·A | X·W] on the whole arrays. -/
abbrev both (X : S100000x256.Idx → EReal) (W : S256x128.Idx → EReal) (A : S128x128.Idx → EReal) : S100000x256.Idx → EReal :=
  sideBySide (N := 100000) (proj X W A) (hid X W)

/-- The block's side-by-side value at a block index against the array's at the index the block puts it. -/
theorem side_blk (x0 : Vec Ideal S4000x256 .f32) (W : Vec Ideal S256x128 .f32) (A : Vec Ideal S128x128 .f32)
    (X : S100000x256.Idx → EReal) (j : S4000x256.Idx) (i : S100000x256.Idx) (T : ℕ)
    (h0 : (i 0).val = T * 4000 + (j 0).val) (h1 : (i 1).val = (j 1).val)
    (hx : ∀ (r : Fin 4000) (l : Fin 256) (R : Fin 100000), R.val = T * 4000 + r.val → x0 (ix2 r l) = X (ix2 R l)) :
    sideBySide (N := 4000) (k0_pay3 (F := Ideal) x0 W A) (k0_pay1 (F := Ideal) x0 W) j = both X W A i := by
  obtain ⟨r, q, rfl⟩ : ∃ (r : Fin 4000) (q : Fin 256), j = ix2 r q := ⟨j 0, j 1, eq_ix2 j⟩
  obtain ⟨R, Q, rfl⟩ : ∃ (R : Fin 100000) (Q : Fin 256), i = ix2 R Q := ⟨i 0, i 1, eq_ix2 i⟩
  obtain rfl : Q = q := Fin.ext h1
  by_cases hq : Q.val < 128
  · rw [side_lo _ _ r Q hq]
    refine Eq.trans ?_ (side_lo (proj X W A) (hid X W) R Q hq).symm
    exact pay3_eq_proj x0 W A X r ⟨Q.val, hq⟩ R (fun l => hx r l R h0)
  · rw [side_hi _ _ r Q hq]
    refine Eq.trans ?_ (side_hi (proj X W A) (hid X W) R Q hq).symm
    exact pay1_eq_hid x0 W X r ⟨Q.val - 128, by have := Q.isLt; omega⟩ R (fun l => hx r l R h0)

/-- What point t writes back to the second output is block t of [(x·W)·a2 | x·W] on the whole arrays. -/
theorem flushed5_eq (c : Dev nD) (t : Fin cfg0.N) :
    (dats (F := Ideal) m 0 c).flushed 5 t
      = ((cfg0.win 5).blk t).view.read (Elt Ideal) (both (V m c main_arg0) (V m c main_arg3) (V m c main_arg5)) := by
  show (cfg0.win 5).cut (grid0.coords t) ((dats m 0 c).after 5 t) = _
  rw [after0_5, out5_eq (iblk m c 0 t) (iblk m c 1 t) (iblk m c 2 t) (iblk m c 3 t)]
  funext j
  show sideBySide (N := 4000) (k0_pay3 (F := Ideal) (iblk m c 0 t) (iblk m c 1 t) (iblk m c 3 t))
        (k0_pay1 (F := Ideal) (iblk m c 0 t) (iblk m c 1 t)) j
      = both (V m c main_arg0) (V m c main_arg3) (V m c main_arg5) (((cfg0.win 5).blk t).view.emb j)
  have key : sideBySide (N := 4000) (k0_pay3 (F := Ideal) (iblk m c 0 t) (iblk m c 1 t) (iblk m c 3 t))
        (k0_pay1 (F := Ideal) (iblk m c 0 t) (iblk m c 1 t)) j
      = sideBySide (N := 4000) (k0_pay3 (F := Ideal) (iblk m c 0 t) (V m c main_arg3) (V m c main_arg5))
        (k0_pay1 (F := Ideal) (iblk m c 0 t) (V m c main_arg3)) j :=
    congrArg₂ (fun (w : Vec Ideal S256x128 .f32) (a : Vec Ideal S128x128 .f32) =>
        sideBySide (N := 4000) (k0_pay3 (F := Ideal) (iblk m c 0 t) w a) (k0_pay1 (F := Ideal) (iblk m c 0 t) w) j)
      (wblk_eq m c t) (a2blk_eq m c t)
  refine key.trans ?_
  obtain ⟨-, -, -, -, -, -, -, -, -, -, e0, e1⟩ := idx_facts t
  refine side_blk (iblk m c 0 t) (V m c main_arg3) (V m c main_arg5) (V m c main_arg0) j
    (((cfg0.win 5).blk t).view.emb j) t.val ?_ ?_ (fun r l R hR => xblk_apply m c t r l R hR)
  · show win0_5.index t (0 : Fin 2) * 4000 + 1 * (j 0).val = t.val * 4000 + (j 0).val; omega
  · show win0_5.index t (1 : Fin 2) * 256 + 1 * (j 1).val = (j 1).val; omega

/-- An index of the second output is in point t's block iff each coordinate is in the block's range on its axis. -/
theorem mem_blk5 (t : Fin cfg0.N) (i : S100000x256.Idx) :
    i ∈ ((cfg0.win 5).blk t).view.set ↔ ∀ a : Fin 2, win0_5.index t a * S4000x256.size a ≤ (i a).val
      ∧ (i a).val < win0_5.index t a * S4000x256.size a + S4000x256.size a := by
  show i ∈ ((View.whole main_v0_1).slice (win0_5.rect t)).set ↔ _
  rw [View.set_slice_whole, Rect.mem_set_unit]
  exact Iff.rfl

/-- Row i of the 100000 lies in the block of point i / 4000. -/
theorem cover5 (i : S100000x256.Idx) :
    ∃ t : Fin cfg0.N, (cfg0.win 5).flush t = true ∧ i ∈ ((cfg0.win 5).blk t).view.set := by
  have hN : cfg0.N = 25 := N_0
  have hi0 : (i 0).val < 100000 := (i 0).isLt
  have hi1 : (i 1).val < 256 := (i 1).isLt
  refine ⟨⟨(i 0).val / 4000, by omega⟩, flush0_5 _, ?_⟩
  rw [mem_blk5]
  obtain ⟨-, -, -, -, -, -, -, -, -, -, e0, e1⟩ := idx_facts ⟨(i 0).val / 4000, by omega⟩
  intro a
  match a with
  | ⟨0, _⟩ =>
    show win0_5.index _ (0 : Fin 2) * 4000 ≤ (i 0).val ∧ (i 0).val < win0_5.index _ (0 : Fin 2) * 4000 + 4000
    rw [e0]; show (i 0).val / 4000 * 4000 ≤ (i 0).val ∧ (i 0).val < (i 0).val / 4000 * 4000 + 4000; omega
  | ⟨1, _⟩ =>
    show win0_5.index _ (1 : Fin 2) * 256 ≤ (i 1).val ∧ (i 1).val < win0_5.index _ (1 : Fin 2) * 256 + 256
    rw [e1]; omega

/-- The second output array after the run: (x·W)·a2 in columns 0…127 and x·W in columns 128…255. -/
theorem arr5 (c : Dev nD) :
    (dats (F := Ideal) m 0 c).arrAt 5 cfg0.N
      = sideBySide (N := 100000)
          (mmP (M := 100000) (K := 128) (N := 128)
            (mmP (M := 100000) (K := 256) (N := 128) (m ((c : Thread nD τ).loc main_arg0)) (m ((c : Thread nD τ).loc main_arg3)))
            (m ((c : Thread nD τ).loc main_arg5)))
          (mmP (M := 100000) (K := 256) (N := 128) (m ((c : Thread nD τ).loc main_arg0)) (m ((c : Thread nD τ).loc main_arg3))) :=
  (dats (F := Ideal) m 0 c).arrAt_eq_of_cover 5
    (both (m ((c : Thread nD τ).loc main_arg0)) (m ((c : Thread nD τ).loc main_arg3)) (m ((c : Thread nD τ).loc main_arg5)))
    (fun t _ => flushed5_eq m c t) cover5

end Cert.KernelIdeal.Region

end
-- ==== Proof.RefTerm.lean ====
/-
  The reference's result as ONE composed term of its argument arrays: two slices of the edge list, the three
  projections, each node index normalised first (a negative one has the node count added) before it names a
  row to gather, the gate, the scaled message, the scatter-add into the rows the source index names, the activation.
-/
import proofs.«429056_j90220083020121_3_alg».proof.Proof.Gen.ReferenceIdeal

noncomputable section

namespace Cert.ReferenceIdeal.Hand

open Cert.ReferenceIdeal Idealize.ShloMosaic
open Cert.ReferenceIdeal.Facts₀

variable {F : FTy → Type} [FloatOps F]

/-- Row 0 of the edge list (the source node of every edge), as a flat vector. -/
def edgeRow0 (ei : IVec S2x600000 32) : IVec S600000 32 :=
  shapeCast S600000 (extractStridedSlice S1x600000 ![0, 0] ei slices_S2x600000_S1x600000_0_0) shapeCasts_S1x600000_S600000

/-- Row 1 of the edge list (the destination node of every edge), as a flat vector. -/
def edgeRow1 (ei : IVec S2x600000 32) : IVec S600000 32 :=
  shapeCast S600000 (extractStridedSlice S1x600000 ![1, 0] ei slices_S2x600000_S1x600000_1_0) shapeCasts_S1x600000_S600000

/-- A vector of node indices normalised first (a negative index has the node count 100000 added), as the
    [E × 1] column of start indices a row gather takes. -/
def wrapCol (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

/-- The messages summed per source node: from the three gathered [E × 128] arrays `A` (source-side gate term),
    `B` (destination-side gate term), `C` (the payload), the edge weights and the source indices, the array
    whose row n is the sum over the edges e with source n of  weight e · (1 / (1 + exp (-(A e + B e)))) · C e. -/
def gateSum (A B C : FVec F S600000x128 .f32) (ev : FVec F S600000 .f32) (src : IVec S600000 32) : FVec F S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 src)
    (mulf (broadcastInDim S600000x128 ![0, 1] bcast_S600000x1_S600000x128_0_1 (broadcastInDim S600000x1 ![0] bcast_S600000_S600000x1_0 ev))
      (mulf (Host.divf (broadcastInDim S600000x128 ![] bcast_S_S600000x128 (constant S_ .f32 0x3F800000#32))
              (addf (broadcastInDim S600000x128 ![] bcast_S_S600000x128 (constant S_ .f32 0x3F800000#32)) (Host.exp (Host.negf (addf A B)))))
        C))

/-- The activation, elementwise: x where x > 0, and 1 · (exp(y) − 1) elsewhere, y being x with its positive entries zeroed. -/
def eluOf (X : FVec F S100000x128 .f32) : FVec F S100000x128 .f32 :=
  select (cmpf .ogt X (broadcastInDim S100000x128 ![] bcast_S_S100000x128 (constant S_ .f32 0x00000000#32))) X
    (mulf (broadcastInDim S100000x128 ![] bcast_S_S100000x128 (constant S_ .f32 0x3F800000#32))
      (Host.expm1 (select (cmpf .ogt X (broadcastInDim S100000x128 ![] bcast_S_S100000x128 (constant S_ .f32 0x00000000#32)))
        (broadcastInDim S100000x128 ![] bcast_S_S100000x128 (id (constant S_ .f32 0x00000000#32))) X)))

/-- The reference's result as one term of its argument arrays. -/
def refOut (x : FVec F S100000x256 .f32) (ei : IVec S2x600000 32) (ev : FVec F S600000 .f32) (W : FVec F S256x128 .f32)
    (a1 a2 : FVec F S128x128 .f32) : FVec F S100000x128 .f32 :=
  eluOf (gateSum
    (Host.gather gather_S100000x128_S600000x1_S600000x128_1_0_n_n_0_1_1128
      (Host.dotGeneral dot_S100000x128_S128x128_S100000x128_1_0_0_1_n_n none
        (Host.dotGeneral dot_S100000x256_S256x128_S100000x128_1_0_0_1_n_n none x W) a1) (wrapCol (edgeRow0 ei)))
    (Host.gather gather_S100000x128_S600000x1_S600000x128_1_0_n_n_0_1_1128
      (Host.dotGeneral dot_S100000x128_S128x128_S100000x128_1_0_0_1_n_n none
        (Host.dotGeneral dot_S100000x256_S256x128_S100000x128_1_0_0_1_n_n none x W) a2) (wrapCol (edgeRow1 ei)))
    (Host.gather gather_S100000x128_S600000x1_S600000x128_1_0_n_n_0_1_1128
      (Host.dotGeneral dot_S100000x256_S256x128_S100000x128_1_0_0_1_n_n none x W) (wrapCol (edgeRow1 ei)))
    ev (edgeRow0 ei))

end Cert.ReferenceIdeal.Hand

end
-- ==== Proof.RefRun.lean ====
/-
  The reference's run, read back. Its @main is a straight line of host operations (the activation at the end is
  a function the tracer outlined; its operations are listed in place): two slices of the edge list, the three
  projections, each node index normalised first (a negative one has the node count added) before it
  names a row to gather, the gate, the scaled message, the scatter-add into the rows the source index names,
  the activation. The run's result is stated as ONE composed term of the argument arrays, `refOut`.
-/
import proofs.«429056_j90220083020121_3_alg».proof.Proof.Gen.ReferenceIdeal
import Idealize.ShloMosaic.Lib.StableHlo.Run
import proofs.«429056_j90220083020121_3_alg».proof.Proof.RefTerm

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- The reference's operations in program order: @main's own fifty-one, then the activation's fifteen listed in
    place over its call's buffers (its zero and comparison twice, the inner selection's three, the exponential
    minus one, the unit scale, the product, the outer selection writing the result buffer). -/
abbrev ops : List (HloOp τ sig (Elt F)) :=
  [ binary main_arg0 main_arg3 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    binary main_v0 main_arg4 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v0 main_arg5 main_v2 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg1 main_v3 ((extractStridedSlice S1x600000 ![0, 0] · slices_S2x600000_S1x600000_0_0) : (⟨S2x600000, .i32⟩ : BufTy).Contents (Elt F) → (⟨S1x600000, .i32⟩ : BufTy).Contents (Elt F)),
    reshape main_v3 main_v4 rfl shapeCasts_S1x600000_S600000,
    unary main_arg1 main_v5 ((extractStridedSlice S1x600000 ![1, 0] · slices_S2x600000_S1x600000_1_0) : (⟨S2x600000, .i32⟩ : BufTy).Contents (Elt F) → (⟨S1x600000, .i32⟩ : BufTy).Contents (Elt F)),
    reshape main_v5 main_v6 rfl shapeCasts_S1x600000_S600000,
    nullary main_c (constantI S_ 32 0#32),
    unary main_c main_v7 (broadcastInDim S600000 ![] bcast_S_S600000 : (⟨S_, .i32⟩ : BufTy).Contents (Elt F) → (⟨S600000, .i32⟩ : BufTy).Contents (Elt F)),
    binary main_v4 main_v7 main_v8 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v9 (broadcastInDim S600000 ![] bcast_S_S600000 : (⟨S_, .i32⟩ : BufTy).Contents (Elt F) → (⟨S600000, .i32⟩ : BufTy).Contents (Elt F)),
    binary main_v4 main_v9 main_v10 (addi : (⟨S600000, .i32⟩ : BufTy).Contents (Elt F) → (⟨S600000, .i32⟩ : BufTy).Contents (Elt F) → (⟨S600000, .i32⟩ : BufTy).Contents (Elt F)),
    ternary main_v8 main_v10 main_v4 main_v11 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v11 main_v12 (broadcastInDim S600000x1 ![0] bcast_S600000_S600000x1_0 : (⟨S600000, .i32⟩ : BufTy).Contents (Elt F) → (⟨S600000x1, .i32⟩ : BufTy).Contents (Elt F)),
    binary main_v1 main_v12 main_v13 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v14 (broadcastInDim S600000 ![] bcast_S_S600000 : (⟨S_, .i32⟩ : BufTy).Contents (Elt F) → (⟨S600000, .i32⟩ : BufTy).Contents (Elt F)),
    binary main_v6 main_v14 main_v15 (cmpi .slt : (⟨S600000, .i32⟩ : BufTy).Contents (Elt F) → (⟨S600000, .i32⟩ : BufTy).Contents (Elt F) → (⟨S600000, .i1⟩ : BufTy).Contents (Elt F)),
    nullary main_c_2 (constantI S_ 32 100000#32),
    unary main_c_2 main_v16 (broadcastInDim S600000 ![] bcast_S_S600000 : (⟨S_, .i32⟩ : BufTy).Contents (Elt F) → (⟨S600000, .i32⟩ : BufTy).Contents (Elt F)),
    binary main_v6 main_v16 main_v17 (addi : (⟨S600000, .i32⟩ : BufTy).Contents (Elt F) → (⟨S600000, .i32⟩ : BufTy).Contents (Elt F) → (⟨S600000, .i32⟩ : BufTy).Contents (Elt F)),
    ternary main_v15 main_v17 main_v6 main_v18 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v18 main_v19 (broadcastInDim S600000x1 ![0] bcast_S600000_S600000x1_0 : (⟨S600000, .i32⟩ : BufTy).Contents (Elt F) → (⟨S600000x1, .i32⟩ : BufTy).Contents (Elt F)),
    binary main_v2 main_v19 main_v20 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v13 main_v20 main_v21 (addf : (⟨S600000x128, .f32⟩ : BufTy).Contents (Elt F) → (⟨S600000x128, .f32⟩ : BufTy).Contents (Elt F) → (⟨S600000x128, .f32⟩ : BufTy).Contents (Elt F)),
    unary main_v21 main_v22 (Host.negf : (⟨S600000x128, .f32⟩ : BufTy).Contents (Elt F) → (⟨S600000x128, .f32⟩ : BufTy).Contents (Elt F)),
    unary main_v22 main_v23 (Host.exp : (⟨S600000x128, .f32⟩ : BufTy).Contents (Elt F) → (⟨S600000x128, .f32⟩ : BufTy).Contents (Elt F)),
    nullary main_cst (constant S_ .f32 0x3F800000#32),
    unary main_cst main_v24 (broadcastInDim S600000x128 ![] bcast_S_S600000x128 : (⟨S_, .f32⟩ : BufTy).Contents (Elt F) → (⟨S600000x128, .f32⟩ : BufTy).Contents (Elt F)),
    binary main_v24 main_v23 main_v25 (addf : (⟨S600000x128, .f32⟩ : BufTy).Contents (Elt F) → (⟨S600000x128, .f32⟩ : BufTy).Contents (Elt F) → (⟨S600000x128, .f32⟩ : BufTy).Contents (Elt F)),
    nullary main_cst_3 (constant S_ .f32 0x3F800000#32),
    unary main_cst_3 main_v26 (broadcastInDim S600000x128 ![] bcast_S_S600000x128 : (⟨S_, .f32⟩ : BufTy).Contents (Elt F) → (⟨S600000x128, .f32⟩ : BufTy).Contents (Elt F)),
    binary main_v26 main_v25 main_v27 (Host.divf : (⟨S600000x128, .f32⟩ : BufTy).Contents (Elt F) → (⟨S600000x128, .f32⟩ : BufTy).Contents (Elt F) → (⟨S600000x128, .f32⟩ : BufTy).Contents (Elt F)),
    nullary main_c_4 (constantI S_ 32 0#32),
    unary main_c_4 main_v28 (broadcastInDim S600000 ![] bcast_S_S600000 : (⟨S_, .i32⟩ : BufTy).Contents (Elt F) → (⟨S600000, .i32⟩ : BufTy).Contents (Elt F)),
    binary main_v6 main_v28 main_v29 (cmpi .slt : (⟨S600000, .i32⟩ : BufTy).Contents (Elt F) → (⟨S600000, .i32⟩ : BufTy).Contents (Elt F) → (⟨S600000, .i1⟩ : BufTy).Contents (Elt F)),
    nullary main_c_5 (constantI S_ 32 100000#32),
    unary main_c_5 main_v30 (broadcastInDim S600000 ![] bcast_S_S600000 : (⟨S_, .i32⟩ : BufTy).Contents (Elt F) → (⟨S600000, .i32⟩ : BufTy).Contents (Elt F)),
    binary main_v6 main_v30 main_v31 (addi : (⟨S600000, .i32⟩ : BufTy).Contents (Elt F) → (⟨S600000, .i32⟩ : BufTy).Contents (Elt F) → (⟨S600000, .i32⟩ : BufTy).Contents (Elt F)),
    ternary main_v29 main_v31 main_v6 main_v32 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v32 main_v33 (broadcastInDim S600000x1 ![0] bcast_S600000_S600000x1_0 : (⟨S600000, .i32⟩ : BufTy).Contents (Elt F) → (⟨S600000x1, .i32⟩ : BufTy).Contents (Elt F)),
    binary main_v0 main_v33 main_v34 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v27 main_v34 main_v35 (mulf : (⟨S600000x128, .f32⟩ : BufTy).Contents (Elt F) → (⟨S600000x128, .f32⟩ : BufTy).Contents (Elt F) → (⟨S600000x128, .f32⟩ : BufTy).Contents (Elt F)),
    unary main_arg2 main_v36 (broadcastInDim S600000x1 ![0] bcast_S600000_S600000x1_0 : (⟨S600000, .f32⟩ : BufTy).Contents (Elt F) → (⟨S600000x1, .f32⟩ : BufTy).Contents (Elt F)),
    unary main_v36 main_v37 (broadcastInDim S600000x128 ![0, 1] bcast_S600000x1_S600000x128_0_1 : (⟨S600000x1, .f32⟩ : BufTy).Contents (Elt F) → (⟨S600000x128, .f32⟩ : BufTy).Contents (Elt F)),
    binary main_v37 main_v35 main_v38 (mulf : (⟨S600000x128, .f32⟩ : BufTy).Contents (Elt F) → (⟨S600000x128, .f32⟩ : BufTy).Contents (Elt F) → (⟨S600000x128, .f32⟩ : BufTy).Contents (Elt F)),
    nullary main_cst_6 (constant S_ .f32 0x00000000#32),
    unary main_cst_6 main_v39 (broadcastInDim S100000x128 ![] bcast_S_S100000x128 : (⟨S_, .f32⟩ : BufTy).Contents (Elt F) → (⟨S100000x128, .f32⟩ : BufTy).Contents (Elt F)),
    unary main_v4 main_v40 (broadcastInDim S600000x1 ![0] bcast_S600000_S600000x1_0 : (⟨S600000, .i32⟩ : BufTy).Contents (Elt F) → (⟨S600000x1, .i32⟩ : BufTy).Contents (Elt F)),
    ternary main_v39 main_v40 main_v38 main_v41 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v41) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v41) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v41) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v41) main_call0.v7 main_call0.call1.v0 select ]

-- sixty-six sequenced steps re-associated: the rewriting under the chain recurses once per statement
set_option maxRecDepth 4096 in
/-- @main is that straight line: the activation's definition and the two selections' unfolded at their calls, the
    records at their fields, both sides are one chain of steps once sequencing is re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: one fact per operation, in order. -/
theorem ops_sub : (ops : List (HloOp τ sig (Elt F))).Forall fun op => op.bufs ⊆ tcRefs τ sig :=
  ⟨binary_bufs_sub .., binary_bufs_sub .., binary_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., binary_bufs_sub .., nullary_bufs_sub ..,
    unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- No operation writes an argument: each argument buffer holds after the line what it held before. -/
theorem arg0_eq (V : Valuation τ sig (Elt F)) :
    after ops V (Proc.devRef .tc main_arg0) = V (Proc.devRef .tc main_arg0) := by
  after_results_simp
theorem arg1_eq (V : Valuation τ sig (Elt F)) :
    after ops V (Proc.devRef .tc main_arg1) = V (Proc.devRef .tc main_arg1) := by
  after_results_simp
theorem arg2_eq (V : Valuation τ sig (Elt F)) :
    after ops V (Proc.devRef .tc main_arg2) = V (Proc.devRef .tc main_arg2) := by
  after_results_simp
theorem arg3_eq (V : Valuation τ sig (Elt F)) :
    after ops V (Proc.devRef .tc main_arg3) = V (Proc.devRef .tc main_arg3) := by
  after_results_simp
theorem arg4_eq (V : Valuation τ sig (Elt F)) :
    after ops V (Proc.devRef .tc main_arg4) = V (Proc.devRef .tc main_arg4) := by
  after_results_simp
theorem arg5_eq (V : Valuation τ sig (Elt F)) :
    after ops V (Proc.devRef .tc main_arg5) = V (Proc.devRef .tc main_arg5) := by
  after_results_simp

attribute [local irreducible] Host.gather Host.scatterAdd Host.exp Host.expm1 in
set_option maxRecDepth 8192 in
/-- The fold read at the result buffer is the composed term: each operation's result at its own buffer is its
    function of its operands' contents and at any other buffer what was there, so the chain of sixty-six
    collapses to one term over the argument arrays; the typed references' transports are the identity at these
    literal references and the two reshapes are the edge rows by definition, so the term is the stated one by
    computation. The gathers, the scatter-add and the two exponentials are kept folded meanwhile: the
    equation never looks inside them. -/
theorem out_eq (V : Valuation τ sig (Elt F)) :
    after ops V (Proc.devRef .tc main_v42)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  rfl

/-- On every device, from any memory with zero counters: every weakly fair execution of the reference's @main
    terminates with its result at `refOut` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v42).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.Hand

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.LibDotPlain.lean ====
/-
  A plain matrix product read index by index, for any extents: a contraction of an [M × K] by a [K × N] array whose
  dimension numbers contract the left operand's axis 1 with the right operand's axis 0, with no batch axis, is the
  matrix product `MatProd.mmP` — entry (r, s) the sum over j of l (r, j) · r (j, s) — both as the host's
  `dot_general` and as the matrix unit's product into a zero accumulator, at the exact-arithmetic instance.
-/
import Idealize.ShloMosaic.PureOps.Ideal
import Idealize.ShloMosaic.PureOps.Ideal.Laws
import Idealize.ShloMosaic.PureOps.Contract
import Idealize.ShloMosaic.Lib.ValueIdx
import proofs.«429056_j90220083020121_3_alg».proof.Proof.LibMatProd

noncomputable section

namespace Idealize.ShloMosaic.DotPlain

open Idealize.ShloMosaic Idealize.ShloMosaic.ValueIdx MatProd

variable {M K N : Nat} (d : DotDims ⟨2, ![M, K]⟩ ⟨2, ![K, N]⟩ ⟨2, ![M, N]⟩)

/-- The left operand's row is the result's row. -/
theorem lhs_axis0 (hlb : d.lhsBatch = []) (hln : d.lhsNonContracting = [0]) (j : (⟨2, ![M, N]⟩ : Shape).Idx) (k : d.contr.Idx) :
    (d.lhsIdx j k 0).val = (j 0).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.lhsIdx
  rw [dif_neg (by rw [hlb]; exact List.not_mem_nil), dif_pos (by rw [hln]; exact List.mem_singleton.mpr rfl)]
  simp only [Fin.val_cast]
  exact key _ _ _ _ (by simp [hlb, hln])

/-- The right operand's column is the result's column. -/
theorem rhs_axis1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.rhsIdx
  rw [dif_neg (by rw [hrb]; exact List.not_mem_nil), dif_pos (by rw [hrn]; exact List.mem_singleton.mpr rfl)]
  simp only [Fin.val_cast]
  exact key _ _ _ _ (by simp [hlb, hln, hrn])

/-- The contraction's sum, re-indexed by the contracted coordinate: the matrix product's entry. -/
theorem contr_sum (hlc : d.lhsContracting = [1]) (hrc : d.rhsContracting = [0]) (hln : d.lhsNonContracting = [0])
    (hrn : d.rhsNonContracting = [1]) (hlb : d.lhsBatch = []) (hrb : d.rhsBatch = [])
    (X : (⟨2, ![M, K]⟩ : Shape).Idx → EReal) (Y : (⟨2, ![K, N]⟩ : Shape).Idx → EReal) (j : (⟨2, ![M, N]⟩ : Shape).Idx) :
    ∑ k : d.contr.Idx, X (d.lhsIdx j k) * Y (d.rhsIdx j k) = mmP X Y j := by
  have hr : d.contr.rank = 1 := by rw [d.rank_contr, hlc]; rfl
  have hs : d.contr.size ⟨0, by omega⟩ = K := by
    rw [d.size_contr 0 (by rw [hlc]; exact Nat.one_pos)]
    simp [hlc]
  refine (Equiv.sum_comp (contrEquiv1 d K hr hs).symm _).symm.trans ?_
  unfold mmP
  refine Finset.sum_congr rfl fun kk _ => ?_
  have e1 : d.lhsIdx j ((contrEquiv1 d K hr hs).symm kk) = ix2 (j 0) kk := by
    funext a; apply Fin.ext
    match a with
    | ⟨0, _⟩ => exact lhs_axis0 d hlb hln j _
    | ⟨1, _⟩ => exact (d.lhsIdx_val_of_single hlc j _).trans (contrEquiv1_symm_val d K hr hs kk)
  have e2 : d.rhsIdx j ((contrEquiv1 d K hr hs).symm kk) = ix2 kk (j 1) := by
    funext a; apply Fin.ext
    match a with
    | ⟨0, _⟩ => exact (d.rhsIdx_val_of_single hrc j _).trans (contrEquiv1_symm_val d K hr hs kk)
    | ⟨1, _⟩ => exact rhs_axis1 d hlb hrb hln hrn j _
  exact congrArg₂ (· * ·) (congrArg X e1) (congrArg Y e2)

/-- The host's `dot_general` with these dimension numbers is the matrix product. -/
theorem dotGeneral_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (sched : HostSchedule)
    (X : FVec Ideal ⟨2, ![M, K]⟩ φ₁) (Y : FVec Ideal ⟨2, ![K, N]⟩ φ₂) :
    FloatOps.dotGeneral d prec sched X Y = mmP X Y := by
  funext j
  rw [Ideal.dotGeneral_apply]
  exact contr_sum d hlc hrc hln hrn hlb hrb X Y j

/-- The matrix unit's product with these dimension numbers into a zero accumulator is the matrix product. -/
theorem matmul_zero_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (X : FVec Ideal ⟨2, ![M, K]⟩ φ₁) (Y : FVec Ideal ⟨2, ![K, N]⟩ φ₂) :
    FloatOps.matmul d prec X Y (constant ⟨2, ![M, N]⟩ .f32 0x00000000#32) = mmP X Y := by
  funext j
  rw [Ideal.matmul_constant_zero_apply]
  exact contr_sum d hlc hrc hln hrn hlb hrb X Y j

end Idealize.ShloMosaic.DotPlain

end
-- ==== Proof.Bridge.lean ====
/-
  The two programs compute one function. The kernel's program gathers rows of its two output arrays — (x·W)·a1, and the
  table [(x·W)·a2 | x·W] — through the plain clamping row gather and cuts the gathered table in two; the reference
  gathers rows of (x·W)·a1, (x·W)·a2 and x·W after normalising each node index (a negative index has the
  node count added). Where no node index is negative the normalisation changes nothing, so the three gathered arrays
  agree entry by entry — a row of the table's left half is the row of (x·W)·a2, of its right half the row of x·W —,
  and from there on the two programs apply the same operations to the same arrays.
-/
import proofs.«429056_j90220083020121_3_alg».proof.Proof.KTail
import proofs.«429056_j90220083020121_3_alg».proof.Proof.RefTerm
import proofs.«429056_j90220083020121_3_alg».proof.Proof.LibRowGatherScatter
import proofs.«429056_j90220083020121_3_alg».proof.Proof.LibDotPlain
import proofs.«429056_j90220083020121_3_alg».proof.Proof.Spec
import Idealize.ShloMosaic.Lib.Pipeline.Value
import Idealize.ShloMosaic.Lib.Affine

noncomputable section

namespace Cert.Bridge

open Idealize.ShloMosaic Idealize.ShloMosaic.ValueIdx MatProd Cert.Spec Idealize.ShloMosaic.RowOps

/-- A select on "the index is negative" between the shifted index and the index itself is the index, where no index is
    negative. -/
theorem select_neg_of_nonneg {s : Shape} (v z a : IVec s 32) (hz : ∀ i, z i = 0#32) (hv : ∀ i, 0 ≤ (v i).toInt) :
    select (cmpi .slt v z) a v = v := by
  funext i
  rw [select_apply]
  have hc : (cmpi .slt v z) i = 0#1 := by
    apply eq_zero_of_ne_one
    intro h
    have h' : IntOp.cmpi .slt (v i) (z i) = 1#1 := h
    rw [hz i] at h'
    have h2 := IntOp.cmpi_slt.1 h'
    have hv' := hv i
    simp at h2
    omega
  rw [hc, select_zero]

section

variable (x : FVec Ideal Cert.KernelIdeal.S100000x256 .f32) (ei : IVec Cert.KernelIdeal.S2x600000 32)
  (ev : FVec Ideal Cert.KernelIdeal.S600000 .f32) (W : FVec Ideal Cert.KernelIdeal.S256x128 .f32)
  (a1 a2 : FVec Ideal Cert.KernelIdeal.S128x128 .f32)

/-- The two programs cut the edge list into its rows the same way. -/
theorem row0_eq : Cert.ReferenceIdeal.Hand.edgeRow0 ei = Cert.KernelIdeal.Tail.edgeRow0 ei := rfl
theorem row1_eq : Cert.ReferenceIdeal.Hand.edgeRow1 ei = Cert.KernelIdeal.Tail.edgeRow1 ei := rfl

/-- Every entry of a row of the edge list is an entry of the edge list. -/
theorem row0_nonneg (hnn : ∀ i, 0 ≤ (ei i).toInt) (i) : 0 ≤ (Cert.KernelIdeal.Tail.edgeRow0 ei i).toInt := by
  unfold Cert.KernelIdeal.Tail.edgeRow0 shapeCast extractStridedSlice
  exact hnn _
theorem row1_nonneg (hnn : ∀ i, 0 ≤ (ei i).toInt) (i) : 0 ≤ (Cert.KernelIdeal.Tail.edgeRow1 ei i).toInt := by
  unfold Cert.KernelIdeal.Tail.edgeRow1 shapeCast extractStridedSlice
  exact hnn _

/-- Where no index is negative the normalised column of start indices is the plain one. -/
theorem wrapCol_eq (v : IVec Cert.KernelIdeal.S600000 32) (hv : ∀ i, 0 ≤ (v i).toInt) :
    Cert.ReferenceIdeal.Hand.wrapCol v = Cert.KernelIdeal.Tail.idxCol v := by
  unfold Cert.ReferenceIdeal.Hand.wrapCol Cert.KernelIdeal.Tail.idxCol
  funext j
  show select (cmpi .slt v _) _ v _ = v _
  exact congrFun (select_neg_of_nonneg v _ _ (by intro i; rfl) hv) _

/-- The reference's projections are matrix products. -/
theorem refH : Host.dotGeneral Cert.ReferenceIdeal.dot_S100000x256_S256x128_S100000x128_1_0_0_1_n_n none x W = mmP x W :=
  DotPlain.dotGeneral_eq _ rfl rfl rfl rfl rfl rfl none .single x W
theorem refH' (h : FVec Ideal Cert.KernelIdeal.S100000x128 .f32) (a : FVec Ideal Cert.KernelIdeal.S128x128 .f32) :
    Host.dotGeneral Cert.ReferenceIdeal.dot_S100000x128_S128x128_S100000x128_1_0_0_1_n_n none h a = mmP h a :=
  DotPlain.dotGeneral_eq _ rfl rfl rfl rfl rfl rfl none .single h a

/-- The left half of the gathered table is the gathered left array. -/
theorem gatherB_eq (P Q : FVec Ideal Cert.KernelIdeal.S100000x128 .f32) (v : IVec Cert.KernelIdeal.S600000 32) :
    (extractStridedSlice Cert.KernelIdeal.S600000x128 ![0, 0]
        (Host.gather Cert.KernelIdeal.gather_S100000x256_S600000x1_S600000x256_1_0_n_n_0_1_1256 (sideBySide (N := 100000) P Q)
          (Cert.KernelIdeal.Tail.idxCol v)) Cert.KernelIdeal.Facts₀.slices_S600000x256_S600000x128_0_0
      : FVec Ideal Cert.KernelIdeal.S600000x128 .f32)
      = Host.gather Cert.ReferenceIdeal.gather_S100000x128_S600000x1_S600000x128_1_0_n_n_0_1_1128 P (Cert.KernelIdeal.Tail.idxCol v) := by
  funext j
  obtain ⟨e, k, rfl⟩ : ∃ (e : Fin 600000) (k : Fin 128), j = ix2 e k := ⟨j 0, j 1, eq_ix2 j⟩
  rw [extractStridedSlice_apply _ _ _ (ix2 e k) (ix2 e (⟨k.val, by omega⟩ : Fin 256)) (fun a => by
    match a with
    | ⟨0, _⟩ => show e.val = 0 + e.val; omega
    | ⟨1, _⟩ => show k.val = 0 + k.val; omega)]
  rw [gather_rows_apply _ rfl rfl rfl rfl rfl rfl _ _ e (⟨k.val, by omega⟩ : Fin 256) (by decide),
    gather_rows_apply _ rfl rfl rfl rfl rfl rfl _ _ e k (by decide)]
  exact sideBySide_left P Q _ k

/-- The right half of the gathered table is the gathered right array. -/
theorem gatherC_eq (P Q : FVec Ideal Cert.KernelIdeal.S100000x128 .f32) (v : IVec Cert.KernelIdeal.S600000 32) :
    (extractStridedSlice Cert.KernelIdeal.S600000x128 ![0, 128]
        (Host.gather Cert.KernelIdeal.gather_S100000x256_S600000x1_S600000x256_1_0_n_n_0_1_1256 (sideBySide (N := 100000) P Q)
          (Cert.KernelIdeal.Tail.idxCol v)) Cert.KernelIdeal.Facts₀.slices_S600000x256_S600000x128_0_128
      : FVec Ideal Cert.KernelIdeal.S600000x128 .f32)
      = Host.gather Cert.ReferenceIdeal.gather_S100000x128_S600000x1_S600000x128_1_0_n_n_0_1_1128 Q (Cert.KernelIdeal.Tail.idxCol v) := by
  funext j
  obtain ⟨e, k, rfl⟩ : ∃ (e : Fin 600000) (k : Fin 128), j = ix2 e k := ⟨j 0, j 1, eq_ix2 j⟩
  rw [extractStridedSlice_apply _ _ _ (ix2 e k) (ix2 e (⟨128 + k.val, by omega⟩ : Fin 256)) (fun a => by
    match a with
    | ⟨0, _⟩ => show e.val = 0 + e.val; omega
    | ⟨1, _⟩ => show 128 + k.val = 128 + k.val; rfl)]
  rw [gather_rows_apply _ rfl rfl rfl rfl rfl rfl _ _ e (⟨128 + k.val, by omega⟩ : Fin 256) (by decide),
    gather_rows_apply _ rfl rfl rfl rfl rfl rfl _ _ e k (by decide)]
  exact sideBySide_right P Q _ k

/-- THE BRIDGE: from the kernel's two output arrays as functions of the arguments, the kernel program's result is the
    reference's, where no node index of the edge list is negative. -/
theorem out_eq (hnn : ∀ i, 0 ≤ (ei i).toInt) :
    Cert.KernelIdeal.Tail.kerOut (F := Ideal) (mmP (mmP x W) a1) (sideBySide (N := 100000) (mmP (mmP x W) a2) (mmP x W)) ei ev
      = Cert.ReferenceIdeal.Hand.refOut (F := Ideal) x ei ev W a1 a2 := by
  unfold Cert.KernelIdeal.Tail.kerOut Cert.ReferenceIdeal.Hand.refOut
  unfold Cert.KernelIdeal.Tail.gatherA Cert.KernelIdeal.Tail.gatherB Cert.KernelIdeal.Tail.gatherC
  rw [row0_eq, row1_eq, wrapCol_eq _ (row0_nonneg ei hnn), wrapCol_eq _ (row1_nonneg ei hnn), refH, refH', refH']
  rw [gatherB_eq, gatherC_eq]
  rfl

end

end Cert.Bridge

end
-- ==== Proof.PreNonneg.lean ====
/-
  The precondition read back: besides the finiteness of the float inputs it says that every entry of the edge
  list, read as a signed word, is non-negative.
-/
import proofs.«429056_j90220083020121_3_alg».proof.Pre_finite_inputs
import Idealize.ShloMosaic.Lib.ReduceAll
import Idealize.ShloMosaic.Lib.ValueIdx

noncomputable section

namespace Cert.PreDecode

open Idealize.ShloMosaic Idealize.ShloMosaic.ValueIdx Cert.Pre_finite_inputs

variable [Cert.Pre_finite_inputs.Facts]

instance : Subsingleton S_.Idx := ⟨fun a b => funext fun d => d.elim0⟩

/-- Where the precondition holds, every node index of the edge list is non-negative as a signed word. -/
theorem edge_nonneg {F : FTy → Type} [FloatOps F] (x : FVec F S100000x256 .f32) (ei : IVec S2x600000 32) (ev : FVec F S600000 .f32)
    (W : FVec F S256x128 .f32) (a1 a2 : FVec F S128x128 .f32)
    (h : Cert.Pre_finite_inputs.fn (F := F) x ei ev W a1 a2 = fun _ => 1#1) (i : S2x600000.Idx) : 0 ≤ (ei i).toInt := by
  have h0 := congrFun h ix0
  dsimp only [Cert.Pre_finite_inputs.fn, Cert.Pre_finite_inputs.fn_part1] at h0
  obtain ⟨-, h1⟩ := IntOp.andi_eq_one.1 h0
  have h2 := Host.reduce_andi_all _ _ _ _ _ h1 i
  have h3 : IntOp.cmpi .sge (ei i) (0#32) = 1#1 := h2
  have h4 := IntOp.cmpi_sge.1 h3
  simpa using h4

end Cert.PreDecode

end
-- ==== Proof.lean ====
/-
  A gated graph layer: per node the projections h = x·W, h1 = h·a1, h2 = h·a2; per edge (s, d) with weight w the
  message  w · sigmoid(h1[s] + h2[d]) · h[d];  per node the sum of the messages of the edges whose source it is, then
  the exponential linear unit. The kernel's program computes the projections block by block (4000 rows of x at a time)
  on the matrix unit, storing h1 and the table [h2 | h], and does the per-edge part on the host with clamping row
  gathers; the reference does everything on the host and normalises each node index first (a negative index has
  the node count 100000 added) before it gathers. Over the extended reals the projections are the same sums, a row of
  the table's left half is the row of h2 and of its right half the row of h, and the per-edge part is literally the
  same operations — so the two results are equal wherever the two gathers read the same rows. They read different rows
  exactly at a negative node index (the reference reads row index + 100000, the kernel's clamping gather row 0), which
  is why the precondition asks, beside the finiteness of the float inputs, that no entry of the edge list be negative;
  an index past the last node is clamped to the last row by both, and dropped by both scatters.
  The frames: the kernel's two programs by the generated frame proofs; the reference's by its run, read back by hand.
-/
import proofs.«429056_j90220083020121_3_alg».proof.Defs
import proofs.«429056_j90220083020121_3_alg».proof.Proof.Gen.Kernel
import proofs.«429056_j90220083020121_3_alg».proof.Proof.Gen.Kernel.Skeleton
import proofs.«429056_j90220083020121_3_alg».proof.Proof.Gen.Kernel.Launch
import proofs.«429056_j90220083020121_3_alg».proof.Proof.Gen.Kernel.Points
import proofs.«429056_j90220083020121_3_alg».proof.Proof.Gen.Kernel.Frame
import proofs.«429056_j90220083020121_3_alg».proof.Proof.Gen.KernelIdeal
import proofs.«429056_j90220083020121_3_alg».proof.Proof.Gen.KernelIdeal.Skeleton
import proofs.«429056_j90220083020121_3_alg».proof.Proof.Gen.KernelIdeal.Launch
import proofs.«429056_j90220083020121_3_alg».proof.Proof.Gen.KernelIdeal.Points
import proofs.«429056_j90220083020121_3_alg».proof.Proof.Gen.KernelIdeal.Frame
import proofs.«429056_j90220083020121_3_alg».proof.Proof.Gen.ReferenceIdeal
import proofs.«429056_j90220083020121_3_alg».proof.Proof.Gen.Pre_finite_inputs
import proofs.«429056_j90220083020121_3_alg».proof.Proof.KTail
import proofs.«429056_j90220083020121_3_alg».proof.Proof.KRegion
import proofs.«429056_j90220083020121_3_alg».proof.Proof.RefRun
import proofs.«429056_j90220083020121_3_alg».proof.Proof.Bridge
import proofs.«429056_j90220083020121_3_alg».proof.Proof.PreNonneg
import Idealize.ShloMosaic.Adequacy
import Idealize.ShloMosaic.Init

noncomputable section

namespace Cert.Proof

open Idealize.ShloMosaic Idealize.SL.Sem

/-- The kernel's program as printed runs and leaves its arguments alone: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- Both idealized programs end with the reference's term of the (agreeing) arguments: the reference by its run, the
    kernel's program by its run, its two output arrays as matrix products, and the bridge. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Cert.ReferenceIdeal.Hand.refOut (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)), ?_, ?_⟩
  · refine (θ_run Cert.KernelIdeal.defs _ _).mono (fun _ h c => ⟨(h c).1.trans ?_, (h c).2⟩)
      (Cert.KernelIdeal.Tail.run (F := Ideal) m ρ)
    rw [Cert.KernelIdeal.Region.arr4 m c, Cert.KernelIdeal.Region.arr5 m c]
    beta_reduce
    rw [(hagree c).1, (hagree c).2.1, (hagree c).2.2.1, (hagree c).2.2.2.1, (hagree c).2.2.2.2.1, (hagree c).2.2.2.2.2]
    exact Cert.Bridge.out_eq _ _ _ _ _ _ (fun i => Cert.PreDecode.edge_nonneg _ _ _ _ _ _ (hpre c) i)
  · exact Cert.ReferenceIdeal.Hand.run (F := Ideal) m' ρ'

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
